-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x1x1024x1024 : Shape := ⟨4, ![16, 1, 1024, 1024]⟩
abbrev S256x1024 : Shape := ⟨2, ![256, 1024]⟩
abbrev S1024x256 : Shape := ⟨2, ![1024, 256]⟩
abbrev S_ : Shape := ⟨0, ![]⟩

class Facts : Prop where
  bcast_S_S16x1x1024x1024 : S_.BroadcastsInDim S16x1x1024x1024 (![] : Fin 0 → Fin S16x1x1024x1024.rank)
  reducesTo_S16x1x1024x1024_S_d0_1_2_3 : S16x1x1024x1024.ReducesTo [0, 1, 2, 3] S_
  h_S_ : 0 < S_.numel
  bcast_S_S256x1024 : S_.BroadcastsInDim S256x1024 (![] : Fin 0 → Fin S256x1024.rank)
  reducesTo_S256x1024_S_d0_1 : S256x1024.ReducesTo [0, 1] S_
  bcast_S_S1024x256 : S_.BroadcastsInDim S1024x256 (![] : Fin 0 → Fin S1024x256.rank)
  reducesTo_S1024x256_S_d0_1 : S1024x256.ReducesTo [0, 1] S_

variable [Facts]

def fn {F : FTy → Type} [FloatOps F] (main_arg0 : FVec F S16x1x1024x1024 .f32) (main_arg1 : FVec F S256x1024 .f32) (main_arg2 : FVec F S1024x256 .f32) : IVec S_ 1 :=
  let main_v0 : FVec F S16x1x1024x1024 .f32 := Host.absf main_arg0
  let main_cst : FVec F S_ .f32 := constant S_ .f32 0x7F800000#32
  let main_v1 : FVec F S16x1x1024x1024 .f32 := broadcastInDim S16x1x1024x1024 ![] bcast_S_S16x1x1024x1024 main_cst
  let main_v2 : IVec S16x1x1024x1024 1 := cmpf .olt main_v0 main_v1
  let main_c : IVec S_ 1 := constantI S_ 1 1#1
  let main_v3 : IVec S_ 1 := (fun x v => Host.reduce IntOp.andi x v reducesTo_S16x1x1024x1024_S_d0_1_2_3 h_S_) main_v2 main_c
  let main_v4 : FVec F S256x1024 .f32 := Host.absf main_arg1
  let main_cst_0 : FVec F S_ .f32 := constant S_ .f32 0x7F800000#32
  let main_v5 : FVec F S256x1024 .f32 := broadcastInDim S256x1024 ![] bcast_S_S256x1024 main_cst_0
  let main_v6 : IVec S256x1024 1 := cmpf .olt main_v4 main_v5
  let main_c_1 : IVec S_ 1 := constantI S_ 1 1#1
  let main_v7 : IVec S_ 1 := (fun x v => Host.reduce IntOp.andi x v reducesTo_S256x1024_S_d0_1 h_S_) main_v6 main_c_1
  let main_v8 : IVec S_ 1 := andi main_v3 main_v7
  let main_v9 : FVec F S1024x256 .f32 := Host.absf main_arg2
  let main_cst_2 : FVec F S_ .f32 := constant S_ .f32 0x7F800000#32
  let main_v10 : FVec F S1024x256 .f32 := broadcastInDim S1024x256 ![] bcast_S_S1024x256 main_cst_2
  let main_v11 : IVec S1024x256 1 := cmpf .olt main_v9 main_v10
  let main_c_3 : IVec S_ 1 := constantI S_ 1 1#1
  let main_v12 : IVec S_ 1 := (fun x v => Host.reduce IntOp.andi x v reducesTo_S1024x256_S_d0_1 h_S_) main_v11 main_c_3
  let main_v13 : IVec S_ 1 := andi main_v8 main_v12
  main_v13
-- ==== Kernel.lean ====
abbrev S16x1x1024x1024 : Shape := ⟨4, ![16, 1, 1024, 1024]⟩
abbrev S256x1024 : Shape := ⟨2, ![256, 1024]⟩
abbrev S1024x256 : Shape := ⟨2, ![1024, 256]⟩
abbrev S16x1x32x32x32x32 : Shape := ⟨6, ![16, 1, 32, 32, 32, 32]⟩
abbrev S16x32x32x1x32x32 : Shape := ⟨6, ![16, 32, 32, 1, 32, 32]⟩
abbrev S16384x1024 : Shape := ⟨2, ![16384, 1024]⟩
abbrev S1024x1024 : Shape := ⟨2, ![1024, 1024]⟩

abbrev nBuf : Space → Nat
  | .hbm => 10
  | .vmem => 6
  | .smem => 0
  | _ => 0

abbrev bufTy : (tb : Table) → Fin (tcTables nBuf tb) → BufTy
  | .hbm, ⟨0, _⟩ => ⟨S16x1x1024x1024, .f32⟩
  | .hbm, ⟨1, _⟩ => ⟨S256x1024, .f32⟩
  | .hbm, ⟨2, _⟩ => ⟨S1024x256, .f32⟩
  | .hbm, ⟨3, _⟩ => ⟨S16x1x32x32x32x32, .f32⟩
  | .hbm, ⟨4, _⟩ => ⟨S16x32x32x1x32x32, .f32⟩
  | .hbm, ⟨5, _⟩ => ⟨S16384x1024, .f32⟩
  | .hbm, ⟨6, _⟩ => ⟨S16384x1024, .f32⟩
  | .hbm, ⟨7, _⟩ => ⟨S16x32x32x1x32x32, .f32⟩
  | .hbm, ⟨8, _⟩ => ⟨S16x1x32x32x32x32, .f32⟩
  | .hbm, ⟨9, _⟩ => ⟨S16x1x1024x1024, .f32⟩
  | .local _ .vmem, ⟨0, _⟩ => ⟨S1024x1024, .f32⟩
  | .local _ .vmem, ⟨1, _⟩ => ⟨S1024x1024, .f32⟩
  | .local _ .vmem, ⟨2, _⟩ => ⟨S256x1024, .f32⟩
  | .local _ .vmem, ⟨3, _⟩ => ⟨S1024x256, .f32⟩
  | .local _ .vmem, ⟨4, _⟩ => ⟨S1024x1024, .f32⟩
  | .local _ .vmem, ⟨5, _⟩ => ⟨S1024x1024, .f32⟩
  | _, _ => ⟨S16x1x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S16x1x1024x1024_S16x1x32x32x32x32 : S16x1x1024x1024.ShapeCasts S16x1x32x32x32x32
  transposes_S16x1x32x32x32x32_S16x32x32x1x32x32_0_2_4_1_3_5 : S16x1x32x32x32x32.Transposes [0, 2, 4, 1, 3, 5] S16x32x32x1x32x32
  shapeCasts_S16x32x32x1x32x32_S16384x1024 : S16x32x32x1x32x32.ShapeCasts S16384x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  bitsLt_bf16_f32 : FTy.bits .bf16 < FTy.bits .f32
  inb_S256x1024_S256x1024_0_0 : ∀ a, (![0, 0] : Fin 2 → Nat) a + S256x1024.size a ≤ S256x1024.size a
  h_S256x1024 : 0 < S256x1024.numel
  inb_S1024x256_S1024x256_0_0 : ∀ a, (![0, 0] : Fin 2 → Nat) a + S1024x256.size a ≤ S1024x256.size a
  h_S1024x256 : 0 < S1024x256.numel
  transposes_S256x1024_p1_0_S1024x256 : S256x1024.Transposes [1, 0] S1024x256
  transposes_S1024x256_p1_0_S256x1024 : S1024x256.Transposes [1, 0] S256x1024
  shapeCasts_S16384x1024_S16x32x32x1x32x32 : S16384x1024.ShapeCasts S16x32x32x1x32x32
  transposes_S16x32x32x1x32x32_S16x1x32x32x32x32_0_3_1_4_2_5 : S16x32x32x1x32x32.Transposes [0, 3, 1, 4, 2, 5] S16x1x32x32x32x32
  shapeCasts_S16x1x32x32x32x32_S16x1x1024x1024 : S16x1x32x32x32x32.ShapeCasts S16x1x1024x1024
  dot_S1024x1024_S1024x256_S1024x256_1_0_0_1_n_n_wf : DotDims.WF S1024x1024 S1024x256 S1024x256 [1] [0] [0] [1] [] []
  dot_S1024x256_S256x1024_S1024x1024_1_0_0_1_n_n_wf : DotDims.WF S1024x256 S256x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S16384x1024.size a
  hwx0_0 : ∀ i : grid0.Coords, EltTy.bits .f32 = 32 ∨ (Rect.block (s := S16384x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S256x1024.size a
  hwx0_1 : ∀ i : grid0.Coords, EltTy.bits .f32 = 32 ∨ (Rect.block (s := S256x1024) S256x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x256.size a ≤ S1024x256.size a
  hwx0_2 : ∀ i : grid0.Coords, EltTy.bits .f32 = 32 ∨ (Rect.block (s := S1024x256) S1024x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S16384x1024.size a
  hwx0_3 : ∀ i : grid0.Coords, EltTy.bits .f32 = 32 ∨ (Rect.block (s := S16384x1024) S1024x1024.size (cc0_transform_3 i) (hinb0_3 i)).WholeWords (EltTy.packing .f32)

variable [Facts₀]

def dot_S1024x1024_S1024x256_S1024x256_1_0_0_1_n_n : DotDims S1024x1024 S1024x256 S1024x256 where
  lhsContracting := [1]
  rhsContracting := [0]
  lhsNonContracting := [0]
  rhsNonContracting := [1]
  lhsBatch := []
  rhsBatch := []
  wf := dot_S1024x1024_S1024x256_S1024x256_1_0_0_1_n_n_wf
def dot_S1024x256_S256x1024_S1024x1024_1_0_0_1_n_n : DotDims S1024x256 S256x1024 S1024x1024 where
  lhsContracting := [1]
  rhsContracting := [0]
  lhsNonContracting := [0]
  rhsNonContracting := [1]
  lhsBatch := []
  rhsBatch := []
  wf := dot_S1024x256_S256x1024_S1024x1024_1_0_0_1_n_n_wf

abbrev win0_0 : Pipeline.Window sig grid0 :=
  Pipeline.Window.ofSpec (Memref.whole main_v2) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16x1x1024x1024 : Shape := ⟨4, ![16, 1, 1024, 1024]⟩
abbrev S256x1024 : Shape := ⟨2, ![256, 1024]⟩
abbrev S1024x256 : Shape := ⟨2, ![1024, 256]⟩
abbrev S16x1x32x32x32x32 : Shape := ⟨6, ![16, 1, 32, 32, 32, 32]⟩
abbrev S16x32x32x1x32x32 : Shape := ⟨6, ![16, 32, 32, 1, 32, 32]⟩
abbrev S16x1024x1024 : Shape := ⟨3, ![16, 1024, 1024]⟩
abbrev S16x1024x256 : Shape := ⟨3, ![16, 1024, 256]⟩

abbrev nBuf : Space → Nat
  | .hbm => 11
  | .vmem => 0
  | .smem => 0
  | _ => 0

abbrev bufTy : (tb : Table) → Fin (tcTables nBuf tb) → BufTy
  | .hbm, ⟨0, _⟩ => ⟨S16x1x1024x1024, .f32⟩
  | .hbm, ⟨1, _⟩ => ⟨S256x1024, .f32⟩
  | .hbm, ⟨2, _⟩ => ⟨S1024x256, .f32⟩
  | .hbm, ⟨3, _⟩ => ⟨S16x1x32x32x32x32, .f32⟩
  | .hbm, ⟨4, _⟩ => ⟨S16x32x32x1x32x32, .f32⟩
  | .hbm, ⟨5, _⟩ => ⟨S16x1024x1024, .f32⟩
  | .hbm, ⟨6, _⟩ => ⟨S16x1024x256, .f32⟩
  | .hbm, ⟨7, _⟩ => ⟨S16x1024x1024, .f32⟩
  | .hbm, ⟨8, _⟩ => ⟨S16x32x32x1x32x32, .f32⟩
  | .hbm, ⟨9, _⟩ => ⟨S16x1x32x32x32x32, .f32⟩
  | .hbm, ⟨10, _⟩ => ⟨S16x1x1024x1024, .f32⟩
  | _, _ => ⟨S16x1x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]

class Facts₀ : Prop where
  shapeCasts_S16x1x1024x1024_S16x1x32x32x32x32 : S16x1x1024x1024.ShapeCasts S16x1x32x32x32x32
  transposes_S16x1x32x32x32x32_S16x32x32x1x32x32_0_2_4_1_3_5 : S16x1x32x32x32x32.Transposes [0, 2, 4, 1, 3, 5] S16x32x32x1x32x32
  shapeCasts_S16x32x32x1x32x32_S16x1024x1024 : S16x32x32x1x32x32.ShapeCasts S16x1024x1024
  shapeCasts_S16x1024x1024_S16x32x32x1x32x32 : S16x1024x1024.ShapeCasts S16x32x32x1x32x32
  transposes_S16x32x32x1x32x32_S16x1x32x32x32x32_0_3_1_4_2_5 : S16x32x32x1x32x32.Transposes [0, 3, 1, 4, 2, 5] S16x1x32x32x32x32
  shapeCasts_S16x1x32x32x32x32_S16x1x1024x1024 : S16x1x32x32x32x32.ShapeCasts S16x1x1024x1024
  dot_S16x1024x1024_S256x1024_S16x1024x256_2_1_01_0_n_n_wf : DotDims.WF S16x1024x1024 S256x1024 S16x1024x256 [2] [1] [0, 1] [0] [] []
  dot_S16x1024x256_S1024x256_S16x1024x1024_2_1_01_0_n_n_wf : DotDims.WF S16x1024x256 S1024x256 S16x1024x1024 [2] [1] [0, 1] [0] [] []

variable [Facts₀]

def dot_S16x1024x1024_S256x1024_S16x1024x256_2_1_01_0_n_n : DotDims S16x1024x1024 S256x1024 S16x1024x256 where
  lhsContracting := [2]
  rhsContracting := [1]
  lhsNonContracting := [0, 1]
  rhsNonContracting := [0]
  lhsBatch := []
  rhsBatch := []
  wf := dot_S16x1024x1024_S256x1024_S16x1024x256_2_1_01_0_n_n_wf
def dot_S16x1024x256_S1024x256_S16x1024x1024_2_1_01_0_n_n : DotDims S16x1024x256 S1024x256 S16x1024x1024 where
  lhsContracting := [2]
  rhsContracting := [1]
  lhsNonContracting := [0, 1]
  rhsNonContracting := [0]
  lhsBatch := []
  rhsBatch := []
  wf := dot_S16x1024x256_S1024x256_S16x1024x1024_2_1_01_0_n_n_wf

class Facts : Prop extends Facts₀ where

variable [Facts]
-- ==== Proof.KernelRow.lean ====
/-
  What the kernel body computes on one block of 1024 patch rows, entry by entry, at the ideal values.

  The body loads the block x0 : [1024, 1024], the sampling weights x1 : [256, 1024] and the reconstruction weights
  x2 : [1024, 256], and stores  (x0 · x1ᵀ) · x2ᵀ.  Changing the float format is the identity on extended reals, a
  product into a zero accumulator is the plain sum over the contracted axis, and a transposed operand is read with its
  two coordinates exchanged. So entry (p, q) of what is stored is
      Σ_s (Σ_k x0[p, k] · x1[s, k]) · x2[q, s] :
  the two linear maps of Proof/Mlp.lean applied to row p of the block.
-/
import proofs.«173516_j4681514353454_1_alg».proof.Proof.Gen.KernelIdeal.Skeleton
import Idealize.ShloMosaic.PureOps.Ideal.Laws
import Idealize.ShloMosaic.Lib.ValueIdx
import Idealize.ShloMosaic.Lib.Pipeline.Value

noncomputable section

namespace Cert.KernelIdeal.Row

open Cert.KernelIdeal Cert.KernelIdeal.Gen Idealize.ShloMosaic Idealize.ShloMosaic.ValueIdx

/-! ## The first product: rows of the block against the sampling weights, contracted over the 1024 patch entries -/

theorem meas_lhs_0 (j : S1024x256.Idx) (q : dot_S1024x1024_S1024x256_S1024x256_1_0_0_1_n_n.contr.Idx) :
    (dot_S1024x1024_S1024x256_S1024x256_1_0_0_1_n_n.lhsIdx j q 0).val = (j 0).val := by
  unfold DotDims.lhsIdx
  rw [dif_neg (show ¬(0 : Fin S1024x1024.rank) ∈ dot_S1024x1024_S1024x256_S1024x256_1_0_0_1_n_n.lhsBatch by decide), dif_pos (show (0 : Fin S1024x1024.rank) ∈ dot_S1024x1024_S1024x256_S1024x256_1_0_0_1_n_n.lhsNonContracting by decide)]
  rfl
theorem meas_lhs_1 (j : S1024x256.Idx) (q : dot_S1024x1024_S1024x256_S1024x256_1_0_0_1_n_n.contr.Idx) :
    (dot_S1024x1024_S1024x256_S1024x256_1_0_0_1_n_n.lhsIdx j q 1).val = (q ⟨0, by decide⟩).val :=
  dot_S1024x1024_S1024x256_S1024x256_1_0_0_1_n_n.lhsIdx_val_of_single rfl j q
theorem meas_rhs_0 (j : S1024x256.Idx) (q : dot_S1024x1024_S1024x256_S1024x256_1_0_0_1_n_n.contr.Idx) :
    (dot_S1024x1024_S1024x256_S1024x256_1_0_0_1_n_n.rhsIdx j q 0).val = (q ⟨0, by decide⟩).val :=
  dot_S1024x1024_S1024x256_S1024x256_1_0_0_1_n_n.rhsIdx_val_of_single rfl j q
theorem meas_rhs_1 (j : S1024x256.Idx) (q : dot_S1024x1024_S1024x256_S1024x256_1_0_0_1_n_n.contr.Idx) :
    (dot_S1024x1024_S1024x256_S1024x256_1_0_0_1_n_n.rhsIdx j q 1).val = (j 1).val := by
  unfold DotDims.rhsIdx
  rw [dif_neg (show ¬(1 : Fin S1024x256.rank) ∈ dot_S1024x1024_S1024x256_S1024x256_1_0_0_1_n_n.rhsBatch by decide), dif_pos (show (1 : Fin S1024x256.rank) ∈ dot_S1024x1024_S1024x256_S1024x256_1_0_0_1_n_n.rhsNonContracting by decide)]
  rfl

/-- Entry (p, s) of the first product is the sum over the 1024 patch entries. -/
theorem meas_apply (l : FVec Ideal S1024x1024 .bf16) (r : FVec Ideal S1024x256 .bf16) (p : Fin 1024) (s : Fin 256) :
    matmul dot_S1024x1024_S1024x256_S1024x256_1_0_0_1_n_n none l r (constant (F := Ideal) S1024x256 .f32 0x00000000#32) (ix2 p s)
      = ∑ k : Fin 1024, l (ix2 p k) * r (ix2 k s) := by
  simp only [matmul]
  rw [Ideal.matmul_constant_zero_apply, ← Equiv.sum_comp (contrEquiv1 dot_S1024x1024_S1024x256_S1024x256_1_0_0_1_n_n 1024 rfl rfl).symm]
  refine Finset.sum_congr rfl fun k _ => ?_
  have hk := contrEquiv1_symm_val dot_S1024x1024_S1024x256_S1024x256_1_0_0_1_n_n 1024 rfl rfl k
  have el : dot_S1024x1024_S1024x256_S1024x256_1_0_0_1_n_n.lhsIdx (ix2 p s) ((contrEquiv1 dot_S1024x1024_S1024x256_S1024x256_1_0_0_1_n_n 1024 rfl rfl).symm k) = ix2 p k := funext fun a => Fin.ext (by
    match a with
    | ⟨0, _⟩ => exact meas_lhs_0 _ _
    | ⟨1, _⟩ => exact (meas_lhs_1 _ _).trans hk)
  have er : dot_S1024x1024_S1024x256_S1024x256_1_0_0_1_n_n.rhsIdx (ix2 p s) ((contrEquiv1 dot_S1024x1024_S1024x256_S1024x256_1_0_0_1_n_n 1024 rfl rfl).symm k) = ix2 k s := funext fun a => Fin.ext (by
    match a with
    | ⟨0, _⟩ => exact (meas_rhs_0 _ _).trans hk
    | ⟨1, _⟩ => exact meas_rhs_1 _ _)
  rw [el, er]

/-! ## The second product: the measurements against the reconstruction weights, contracted over the 256 measurements -/

theorem rec_lhs_0 (j : S1024x1024.Idx) (q : dot_S1024x256_S256x1024_S1024x1024_1_0_0_1_n_n.contr.Idx) :
    (dot_S1024x256_S256x1024_S1024x1024_1_0_0_1_n_n.lhsIdx j q 0).val = (j 0).val := by
  unfold DotDims.lhsIdx
  rw [dif_neg (show ¬(0 : Fin S1024x256.rank) ∈ dot_S1024x256_S256x1024_S1024x1024_1_0_0_1_n_n.lhsBatch by decide), dif_pos (show (0 : Fin S1024x256.rank) ∈ dot_S1024x256_S256x1024_S1024x1024_1_0_0_1_n_n.lhsNonContracting by decide)]
  rfl
theorem rec_lhs_1 (j : S1024x1024.Idx) (q : dot_S1024x256_S256x1024_S1024x1024_1_0_0_1_n_n.contr.Idx) :
    (dot_S1024x256_S256x1024_S1024x1024_1_0_0_1_n_n.lhsIdx j q 1).val = (q ⟨0, by decide⟩).val :=
  dot_S1024x256_S256x1024_S1024x1024_1_0_0_1_n_n.lhsIdx_val_of_single rfl j q
theorem rec_rhs_0 (j : S1024x1024.Idx) (q : dot_S1024x256_S256x1024_S1024x1024_1_0_0_1_n_n.contr.Idx) :
    (dot_S1024x256_S256x1024_S1024x1024_1_0_0_1_n_n.rhsIdx j q 0).val = (q ⟨0, by decide⟩).val :=
  dot_S1024x256_S256x1024_S1024x1024_1_0_0_1_n_n.rhsIdx_val_of_single rfl j q
theorem rec_rhs_1 (j : S1024x1024.Idx) (q : dot_S1024x256_S256x1024_S1024x1024_1_0_0_1_n_n.contr.Idx) :
    (dot_S1024x256_S256x1024_S1024x1024_1_0_0_1_n_n.rhsIdx j q 1).val = (j 1).val := by
  unfold DotDims.rhsIdx
  rw [dif_neg (show ¬(1 : Fin S256x1024.rank) ∈ dot_S1024x256_S256x1024_S1024x1024_1_0_0_1_n_n.rhsBatch by decide), dif_pos (show (1 : Fin S256x1024.rank) ∈ dot_S1024x256_S256x1024_S1024x1024_1_0_0_1_n_n.rhsNonContracting by decide)]
  rfl

/-- Entry (p, q) of the second product is the sum over the 256 measurements. -/
theorem rec_apply (l : FVec Ideal S1024x256 .bf16) (r : FVec Ideal S256x1024 .bf16) (p q : Fin 1024) :
    matmul dot_S1024x256_S256x1024_S1024x1024_1_0_0_1_n_n none l r (constant (F := Ideal) S1024x1024 .f32 0x00000000#32) (ix2 p q)
      = ∑ s : Fin 256, l (ix2 p s) * r (ix2 s q) := by
  simp only [matmul]
  rw [Ideal.matmul_constant_zero_apply, ← Equiv.sum_comp (contrEquiv1 dot_S1024x256_S256x1024_S1024x1024_1_0_0_1_n_n 256 rfl rfl).symm]
  refine Finset.sum_congr rfl fun s _ => ?_
  have hs := contrEquiv1_symm_val dot_S1024x256_S256x1024_S1024x1024_1_0_0_1_n_n 256 rfl rfl s
  have el : dot_S1024x256_S256x1024_S1024x1024_1_0_0_1_n_n.lhsIdx (ix2 p q) ((contrEquiv1 dot_S1024x256_S256x1024_S1024x1024_1_0_0_1_n_n 256 rfl rfl).symm s) = ix2 p s := funext fun a => Fin.ext (by
    match a with
    | ⟨0, _⟩ => exact rec_lhs_0 _ _
    | ⟨1, _⟩ => exact (rec_lhs_1 _ _).trans hs)
  have er : dot_S1024x256_S256x1024_S1024x1024_1_0_0_1_n_n.rhsIdx (ix2 p q) ((contrEquiv1 dot_S1024x256_S256x1024_S1024x1024_1_0_0_1_n_n 256 rfl rfl).symm s) = ix2 s q := funext fun a => Fin.ext (by
    match a with
    | ⟨0, _⟩ => exact (rec_rhs_0 _ _).trans hs
    | ⟨1, _⟩ => exact rec_rhs_1 _ _)
  rw [el, er]

/-! ## The stored value -/

/-- A [256, 1024] array transposed, read at (k, s), is the array at (s, k). -/
theorem sampT_apply (x : FVec Ideal S256x1024 .bf16) (k : Fin 1024) (s : Fin 256) :
    transpose S1024x256 [1, 0] x transposes_S256x1024_p1_0_S1024x256 (ix2 k s) = x (ix2 s k) :=
  transpose_apply [1, 0] x transposes_S256x1024_p1_0_S1024x256 (ix2 k s) (ix2 s k) (fun b => match b with
    | ⟨0, _⟩ => rfl
    | ⟨1, _⟩ => rfl)

/-- A [1024, 256] array transposed, read at (s, q), is the array at (q, s). -/
theorem initT_apply (x : FVec Ideal S1024x256 .bf16) (s : Fin 256) (q : Fin 1024) :
    transpose S256x1024 [1, 0] x transposes_S1024x256_p1_0_S256x1024 (ix2 s q) = x (ix2 q s) :=
  transpose_apply [1, 0] x transposes_S1024x256_p1_0_S256x1024 (ix2 s q) (ix2 q s) (fun b => match b with
    | ⟨0, _⟩ => rfl
    | ⟨1, _⟩ => rfl)

/-- Entry (p, q) of what the body stores: both linear maps applied to row p of the loaded block. -/
theorem stored_apply (x0 : Vec Ideal S1024x1024 .f32) (x1 : Vec Ideal S256x1024 .f32) (x2 : Vec Ideal S1024x256 .f32)
    (p q : Fin 1024) :
    k0_pay1 (F := Ideal) x0 x1 x2 (ix2 p q)
      = ∑ s : Fin 256, (∑ k : Fin 1024, x0 (ix2 p k) * x1 (ix2 s k)) * x2 (ix2 q s) := by
  unfold k0_pay1
  refine (rec_apply _ _ p q).trans ?_
  refine Finset.sum_congr rfl fun s _ => ?_
  refine congrArg₂ (· * ·) ?_ (initT_apply _ s q)
  refine (meas_apply _ _ p s).trans ?_
  refine Finset.sum_congr rfl fun k _ => ?_
  exact congrArg₂ (· * ·) (congrFun (shapeCast_self x0 shapeCasts_S1024x1024_S1024x1024) (ix2 p k)) (sampT_apply _ k s)

end Cert.KernelIdeal.Row

end
-- ==== Proof.Mlp.lean ====
/-
  The mathematics both programs compute, stated once over plain arrays of extended reals.

  An image batch x : [16, 1, 1024, 1024] is cut into 32 × 32 patches; a patch, flattened, is a row of 1024 numbers.
  Each row a goes through two linear maps: the sampling map  meas[s] = Σ_k a[k] · ws[s, k]  (256 measurements) and the
  initial reconstruction  rec[q] = Σ_s meas[s] · wi[q, s]  (1024 numbers again). The rows are then put back as patches.
  One program keeps the 16384 rows as ONE matrix [16384, 1024]; the other keeps them per image, [16, 1024, 1024].
  Row r of the matrix is row (r / 1024, r % 1024) of the batched array: the two are one list of numbers in row-major
  order, and the two-layer map acts on each row by itself, so it commutes with the change of arrangement
  (`rowsMlp_flatten`). No law of arithmetic is used: both sides are the same sums in the same grouping.
-/
import Idealize.ShloMosaic.PureOps.Ideal.Laws
import Idealize.ShloMosaic.Lib.ValueIdx
import Idealize.ShloMosaic.Lib.Pipeline.Value

noncomputable section

namespace Cert.PatchMlp

open Idealize.ShloMosaic Idealize.ShloMosaic.ValueIdx

/-- All patches as the rows of one matrix. -/
abbrev Rows : Shape := ⟨2, ![16384, 1024]⟩
/-- The patches of each image as a matrix of its own. -/
abbrev Imgs : Shape := ⟨3, ![16, 1024, 1024]⟩
/-- The sampling weights: one row of 1024 per measurement. -/
abbrev Samp : Shape := ⟨2, ![256, 1024]⟩
/-- The reconstruction weights: one row of 256 per output number. -/
abbrev Init : Shape := ⟨2, ![1024, 256]⟩

/-- The two linear maps applied to every row of a matrix of rows. -/
def rowsMlp (A : FVec Ideal Rows .f32) (ws : FVec Ideal Samp .f32) (wi : FVec Ideal Init .f32) : FVec Ideal Rows .f32 :=
  fun i => ∑ s : Fin 256, (∑ k : Fin 1024, A (ix2 (i 0) k) * ws (ix2 s k)) * wi (ix2 (i 1) s)

/-- The same applied to every row of every image's matrix. -/
def imgsMlp (A : FVec Ideal Imgs .f32) (ws : FVec Ideal Samp .f32) (wi : FVec Ideal Init .f32) : FVec Ideal Imgs .f32 :=
  fun i => ∑ s : Fin 256, (∑ k : Fin 1024, A (ix3 (i 0) (i 1) k) * ws (ix2 s k)) * wi (ix2 (i 2) s)

/-- Re-arranging in row-major order twice is re-arranging once. -/
theorem shapeCast_trans {s t u : Shape} {α : Type} (v : s.Idx → α) (h : s.ShapeCasts t) (h' : t.ShapeCasts u)
    (h'' : s.ShapeCasts u) : shapeCast u (shapeCast t v h) h' = shapeCast u v h'' :=
  funext fun j => congrArg v (Shape.reshapeEquiv_reshapeEquiv h h' j)

/-- Row `r` of the one matrix is row `(r / 1024, r % 1024)` of the batched array, entry by entry. -/
theorem flatten_apply {α : Type} (X : Imgs.Idx → α) (h : Imgs.ShapeCasts Rows) (r : Fin 16384) (q : Fin 1024)
    (hb : r.val / 1024 < 16) (hp : r.val % 1024 < 1024) :
    shapeCast Rows X h (ix2 r q) = X (ix3 ⟨r.val / 1024, hb⟩ ⟨r.val % 1024, hp⟩ q) := by
  refine shapeCast_apply X h (ix2 r q) _ ?_
  rw [Shape.rowMajor_val_three, Shape.rowMajor_val_two]
  show (r.val / 1024 * 1024 + r.val % 1024) * 1024 + q.val = r.val * 1024 + q.val
  omega

/-- The two-layer map acts row by row, so it does not see whether the rows are kept as one matrix or per image. -/
theorem rowsMlp_flatten (A : FVec Ideal Imgs .f32) (ws : FVec Ideal Samp .f32) (wi : FVec Ideal Init .f32)
    (h : Imgs.ShapeCasts Rows) : rowsMlp (shapeCast Rows A h) ws wi = shapeCast Rows (imgsMlp A ws wi) h := by
  funext i
  obtain ⟨r, q, rfl⟩ : ∃ (r : Fin 16384) (q : Fin 1024), i = ix2 r q := ⟨i 0, i 1, eq_ix2 i⟩
  have hr : r.val < 16384 := r.isLt
  have hb : r.val / 1024 < 16 := by omega
  have hp : r.val % 1024 < 1024 := by omega
  rw [flatten_apply (imgsMlp A ws wi) h r q hb hp]
  unfold rowsMlp imgsMlp
  refine Finset.sum_congr rfl fun s _ => ?_
  refine congrArg (· * wi (ix2 q s)) ?_
  refine Finset.sum_congr rfl fun k _ => ?_
  exact congrArg (· * ws (ix2 s k)) (flatten_apply A h r k hb hp)

end Cert.PatchMlp

end
-- ==== Proof.KernelArray.lean ====
/-
  The array the kernel region leaves, and with it the idealized kernel's result, as one function of the arguments.

  The region runs over 16 grid points. At point t it stages rows 1024·t … 1024·t + 1023 of the patch matrix (all 1024
  columns) and both weight arrays whole, and writes back the same rows of its output. What it writes at (p, q) of the
  block is both linear maps applied to row p of the staged block (Proof/KernelRow.lean), that is to row 1024·t + p of the
  patch matrix: every point writes a block of ONE whole-array function, `rowsMlp` of the patch matrix and the weights.
  The 16 blocks tile the 16384 rows (row r lies in the block of point r / 1024), so the output array ends holding
  that function. The patch matrix itself is the image batch cut into patches by the three host operations before the
  region, and the result is the output array put back as images by the three host operations after it.
-/
import proofs.«173516_j4681514353454_1_alg».proof.Proof.Gen.KernelIdeal.Frame
import proofs.«173516_j4681514353454_1_alg».proof.Proof.KernelRow
import proofs.«173516_j4681514353454_1_alg».proof.Proof.Mlp
import Idealize.ShloMosaic.Lib.StableHlo.Run

set_option maxRecDepth 16384

noncomputable section

namespace Cert.KernelIdeal.Out

open Cert.KernelIdeal Cert.KernelIdeal.Gen Cert.PatchMlp
open Idealize.ShloMosaic Idealize.ShloMosaic.TcCoe Idealize.ShloMosaic.ValueIdx Idealize.SL.Sem

variable (m : (ℓ : Loc nD τ sig) → Buf (Elt Ideal) ℓ) (ρ : Dev nD → PrngReg)

theorem offsets_zero : (![0, 0] : Fin 2 → Nat) = fun _ => 0 := funext fun a => by fin_cases a <;> rfl

/-- The one store covers the whole staging buffer from offset zero, and each load reads a whole buffer: what the body
    leaves in the output's buffer is the stored value of the three loaded blocks. -/
theorem left_eq_stored (x0 : Vec Ideal S1024x1024 .f32) (x1 : Vec Ideal S256x1024 .f32) (x2 : Vec Ideal S1024x256 .f32) :
    out0_3 x0 x1 x2 = k0_pay1 x0 x1 x2 := by
  unfold out0_3
  rw [View.canon_unit_zero offsets_zero]
  simp only [View.ld_unit_zero (S := S1024x1024) offsets_zero, View.ld_unit_zero (S := S256x1024) offsets_zero,
    View.ld_unit_zero (S := S1024x256) offsets_zero]

/-- If row `y 0` of the staged block is row `i 0` of a matrix of rows `A`, the staged weights are `ws` and `wi`, and
    column `y 1` is column `i 1`, then what the body leaves at `y` is the two-layer map of `A` at `i`. -/
theorem left_apply (x0 : Vec Ideal S1024x1024 .f32) (x1 : Vec Ideal S256x1024 .f32) (x2 : Vec Ideal S1024x256 .f32)
    (A : FVec Ideal Rows .f32) (ws : FVec Ideal Samp .f32) (wi : FVec Ideal Init .f32) (y : S1024x1024.Idx) (i : Rows.Idx)
    (h0 : ∀ k : Fin 1024, x0 (ix2 (y 0) k) = A (ix2 (i 0) k))
    (h1 : ∀ (s : Fin 256) (k : Fin 1024), x1 (ix2 s k) = ws (ix2 s k))
    (h2 : ∀ s : Fin 256, x2 (ix2 (y 1) s) = wi (ix2 (i 1) s)) :
    out0_3 x0 x1 x2 y = rowsMlp A ws wi i := by
  obtain ⟨p, q, rfl⟩ : ∃ (p q : Fin 1024), y = ix2 p q := ⟨y 0, y 1, eq_ix2 y⟩
  rw [left_eq_stored]
  refine (Row.stored_apply x0 x1 x2 p q).trans ?_
  unfold rowsMlp
  refine Finset.sum_congr rfl fun s _ => ?_
  exact congrArg₂ (· * ·) (Finset.sum_congr rfl fun k _ => congrArg₂ (· * ·) (h0 k) (h1 s k)) (h2 s)

/-- The printed index maps, decided over the 16 points: the row block of the patch matrix staged at a point is the
    row block written back, which is the point's number; every other block index is zero. -/
theorem index_facts : ∀ t : Fin cfg0.N, win0_0.index t (0 : Fin 2) = win0_3.index t (0 : Fin 2)
    ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) ≤ 15 ∧ win0_3.index t (1 : Fin 2) = 0 :=
  (by decide +kernel : ∀ t : Fin grid0.N, _)

/-- Every row block is some point's. -/
theorem index_onto : ∀ b : Fin 16, ∃ t : Fin cfg0.N, win0_3.index t = ![b.val, 0] :=
  (by decide +kernel : ∀ b : Fin 16, ∃ t : Fin grid0.N, win0_3.index t = ![b.val, 0])

/-- The patch matrix as the region finds it. -/
abbrev patches (c : Dev nD) : FVec Ideal Rows .f32 := V m c main_v2

/-- What the output array ends holding. -/
abbrev recon (c : Dev nD) : FVec Ideal Rows .f32 := rowsMlp (patches m c) (V m c main_arg1) (V m c main_arg2)

/-- WHAT POINT `t` WRITES BACK is block `t` of the two-layer map of the patch matrix. -/
theorem flushed_eq (c : Dev nD) (t : Fin cfg0.N) :
    (dats m 0 c).flushed 3 t = ((cfg0.win 3).blk t).view.read (Elt Ideal) (recon m c) := by
  show (cfg0.win 3).cut (grid0.coords t) ((dats m 0 c).after 3 t) = _
  rw [after0_3]
  obtain ⟨e00, e01, e10, e11, e20, e21, -, e31⟩ := index_facts t
  funext j
  show out0_3 (iblk m c 0 t) (iblk m c 1 t) (iblk m c 2 t) j = recon m c (((cfg0.win 3).blk t).view.emb j)
  refine left_apply (iblk m c 0 t) (iblk m c 1 t) (iblk m c 2 t) (patches m c) (V m c main_arg1) (V m c main_arg2) j
    (((cfg0.win 3).blk t).view.emb j) ?_ ?_ ?_
  · intro k
    show V m c main_v2 (((cfg0.win 0).blk t).view.emb (ix2 (j 0) k)) = V m c main_v2 (ix2 ((((cfg0.win 3).blk t).view.emb j) 0) k)
    refine congrArg (V m c main_v2) (funext fun a => Fin.ext ?_)
    match a with
    | ⟨0, _⟩ => show win0_0.index t (0 : Fin 2) * 1024 + 1 * (j 0).val = win0_3.index t (0 : Fin 2) * 1024 + 1 * (j 0).val; omega
    | ⟨1, _⟩ => show win0_0.index t (1 : Fin 2) * 1024 + 1 * k.val = k.val; omega
  · intro s k
    show V m c main_arg1 (((cfg0.win 1).blk t).view.emb (ix2 s k)) = V m c main_arg1 (ix2 s k)
    refine congrArg (V m c main_arg1) (funext fun a => Fin.ext ?_)
    match a with
    | ⟨0, _⟩ => show win0_1.index t (0 : Fin 2) * 256 + 1 * s.val = s.val; omega
    | ⟨1, _⟩ => show win0_1.index t (1 : Fin 2) * 1024 + 1 * k.val = k.val; omega
  · intro s
    show V m c main_arg2 (((cfg0.win 2).blk t).view.emb (ix2 (j 1) s)) = V m c main_arg2 (ix2 ((((cfg0.win 3).blk t).view.emb j) 1) s)
    refine congrArg (V m c main_arg2) (funext fun a => Fin.ext ?_)
    match a with
    | ⟨0, _⟩ => show win0_2.index t (0 : Fin 2) * 1024 + 1 * (j 1).val = win0_3.index t (1 : Fin 2) * 1024 + 1 * (j 1).val; omega
    | ⟨1, _⟩ => show win0_2.index t (1 : Fin 2) * 256 + 1 * s.val = s.val; omega

/-- An index of the output array is in point `t`'s block iff each coordinate is in the block's range on its axis. -/
theorem mem_blk (t : Fin cfg0.N) (i : S16384x1024.Idx) :
    i ∈ ((cfg0.win 3).blk t).view.set ↔ ∀ a : Fin 2, win0_3.index t a * S1024x1024.size a ≤ (i a).val ∧ (i a).val < win0_3.index t a * S1024x1024.size a + S1024x1024.size a := by
  show i ∈ ((View.whole main_v3).slice (win0_3.rect t)).set ↔ _
  rw [View.set_slice_whole, Rect.mem_set_unit]
  exact Iff.rfl

/-- The 16 blocks tile the rows: row r is in the block of the point whose row block is r / 1024. -/
theorem covered (i : S16384x1024.Idx) :
    ∃ t : Fin cfg0.N, (cfg0.win 3).flush t = true ∧ i ∈ ((cfg0.win 3).blk t).view.set := by
  have hi0 : (i 0).val < 16384 := (i 0).isLt
  have hi1 : (i 1).val < 1024 := (i 1).isLt
  obtain ⟨t, ht⟩ := index_onto ⟨(i 0).val / 1024, by omega⟩
  have q0 : win0_3.index t (0 : Fin 2) = (i 0).val / 1024 := congrFun ht 0
  have q1 : win0_3.index t (1 : Fin 2) = 0 := congrFun ht 1
  refine ⟨t, flush0_3 t, ?_⟩
  rw [mem_blk]
  intro a
  match a with
  | ⟨0, _⟩ => show win0_3.index t (0 : Fin 2) * 1024 ≤ (i 0).val ∧ (i 0).val < win0_3.index t (0 : Fin 2) * 1024 + 1024; omega
  | ⟨1, _⟩ => show win0_3.index t (1 : Fin 2) * 1024 ≤ (i 1).val ∧ (i 1).val < win0_3.index t (1 : Fin 2) * 1024 + 1024; omega

/-- THE OUTPUT ARRAY after the run: the two-layer map of the patch matrix. -/
theorem final (c : Dev nD) : (dats m 0 c).arrAt 3 cfg0.N = recon m c :=
  (dats m 0 c).arrAt_eq_of_cover 3 (recon m c) (fun t _ => flushed_eq m c t) covered

end Cert.KernelIdeal.Out

end
-- ==== Proof.KernelRun.lean ====
/-
  The idealized kernel program's run, with its result named as one function of the three arguments.

  Before the region the image batch is cut into patches: split rows and columns into 32 × 32 (a row-major re-arrangement
  to six axes), bring the two patch-position axes forward (a transpose), and flatten each patch to a row of the patch
  matrix (a row-major re-arrangement again). After the region the output array goes the same way back. Between them the
  region leaves the two-layer map of the patch matrix (Proof/KernelArray.lean).
-/
import proofs.«173516_j4681514353454_1_alg».proof.Proof.KernelArray

set_option maxRecDepth 16384

noncomputable section

namespace Cert.KernelIdeal.Out

open Cert.KernelIdeal Cert.KernelIdeal.Gen Cert.PatchMlp
open Idealize.ShloMosaic Idealize.ShloMosaic.TcCoe Idealize.ShloMosaic.ValueIdx Idealize.SL.Sem

/-- The image batch cut into patches, one patch per row of a [16384, 1024] matrix. -/
def toPatches (x : FVec Ideal S16x1x1024x1024 .f32) : FVec Ideal S16384x1024 .f32 :=
  shapeCast S16384x1024 (transpose S16x32x32x1x32x32 [0, 2, 4, 1, 3, 5] (shapeCast S16x1x32x32x32x32 x shapeCasts_S16x1x1024x1024_S16x1x32x32x32x32) transposes_S16x1x32x32x32x32_S16x32x32x1x32x32_0_2_4_1_3_5) shapeCasts_S16x32x32x1x32x32_S16384x1024

/-- A matrix of patch rows put back as an image batch. -/
def fromPatches (r : FVec Ideal S16384x1024 .f32) : FVec Ideal S16x1x1024x1024 .f32 :=
  shapeCast S16x1x1024x1024 (transpose S16x1x32x32x32x32 [0, 3, 1, 4, 2, 5] (shapeCast S16x32x32x1x32x32 r shapeCasts_S16384x1024_S16x32x32x1x32x32) transposes_S16x32x32x1x32x32_S16x1x32x32x32x32_0_3_1_4_2_5) shapeCasts_S16x1x32x32x32x32_S16x1x1024x1024

/-- The program's result: cut into patches, both linear maps on every patch, put back. -/
def value (x : FVec Ideal S16x1x1024x1024 .f32) (ws : FVec Ideal S256x1024 .f32) (wi : FVec Ideal S1024x256 .f32) :
    FVec Ideal S16x1x1024x1024 .f32 :=
  fromPatches (rowsMlp (toPatches x) ws wi)

variable (m : (ℓ : Loc nD τ sig) → Buf (Elt Ideal) ℓ) (ρ : Dev nD → PrngReg)

/-- The patch matrix the region finds is the image batch as launched, cut into patches by the three host operations. -/
theorem patches_eq (c : Dev nD) : patches m c = toPatches (m ((c.tc : Thread nD τ).loc main_arg0)) := by
  show StableHlo.after hostOps0 (fun b => m (c, b)) (Proc.devRef .tc main_v2) = _
  after_results
  rfl

/-- What the region leaves, in terms of the arguments as launched. -/
theorem recon_eq (c : Dev nD) :
    recon m c = rowsMlp (toPatches (m ((c.tc : Thread nD τ).loc main_arg0))) (m ((c.tc : Thread nD τ).loc main_arg1))
      (m ((c.tc : Thread nD τ).loc main_arg2)) := by
  unfold recon
  rw [patches_eq, V_main_arg1, V_main_arg2]

/-- The three host operations after the region put the output array back as an image batch. -/
theorem result_eq (c : Dev nD) :
    Pipeline.afterTail₀ cfgs (dats m) 0 (V0 m) [hostOps1] c main_v6 = fromPatches (recon m c) := by
  have hw : Pipeline.withArrays (cfgs 0).spec c (V0 m c) (fun w => (dats m 0 c).arrAt w (cfgs 0).N) (Proc.devRef .tc main_v3)
      = recon m c :=
    (Pipeline.withArrays_arr spec0 launch0.win.arr_inj c _ _ 3).trans (final m c)
  unfold Pipeline.afterTail₀
  show StableHlo.after hostOps1 _ (Proc.devRef .tc main_v6) = _
  after_results
  rw [hw]
  rfl

/-- THE RUN: every weakly fair execution ends with the result at `value` of the arguments and the arguments unchanged. -/
theorem run : θ_run defs (onTc (τ := τ) (main (F := Ideal))) ⟨m, fun _ => 0, ρ⟩ fun r => ∀ c : Dev nD,
      r.2.mem ((c.tc : Thread nD τ).loc main_v6)
        = value (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v6 (Pipeline.mem_restRefs_of main_v6 (by decide) (by decide))).trans
        ((result_eq m c).trans (congrArg fromPatches (recon_eq m c))),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c)))⟩)
    (run_main m ρ)

end Cert.KernelIdeal.Out

end
-- ==== Proof.RefSide.lean ====
/-
  The reference, read: its two contractions are the two linear maps applied to every row of every image's patch matrix.

  The reference cuts the image batch into patches with the same three host operations as the kernel program, except that
  the last one arranges the rows per image, [16, 1024, 1024]; then  meas[b, p, s] = Σ_k patches[b, p, k] · ws[s, k]  and
  rec[b, p, q] = Σ_s meas[b, p, s] · wi[q, s],  each a host contraction, which at the ideal values is that plain sum.
-/
import proofs.«173516_j4681514353454_1_alg».proof.Proof.Gen.ReferenceIdeal.Read
import proofs.«173516_j4681514353454_1_alg».proof.Proof.Mlp

noncomputable section

namespace Cert.ReferenceIdeal.Rec

open Cert.ReferenceIdeal Cert.ReferenceIdeal.Gen Cert.ReferenceIdeal.Read Cert.PatchMlp
open Idealize.ShloMosaic Idealize.ShloMosaic.ValueIdx

/-- The second contraction's result is the two-layer map of the per-image patch matrices. -/
theorem rec_eq (x0 : (⟨S16x1x1024x1024, .f32⟩ : BufTy).Contents (Elt Ideal)) (x1 : (⟨S256x1024, .f32⟩ : BufTy).Contents (Elt Ideal))
    (x2 : (⟨S1024x256, .f32⟩ : BufTy).Contents (Elt Ideal)) :
    val_main_v4 (F := Ideal) x0 x1 x2 = imgsMlp (val_main_v2 (F := Ideal) x0) x1 x2 := by
  funext i
  rw [val_main_v4_apply]
  unfold imgsMlp
  refine Finset.sum_congr rfl fun s _ => ?_
  rw [val_main_v3_apply]
  have e1 : ∀ k : Fin 1024, lidx_main_v3 (lidx_main_v4 i s) k = ix3 (i 0) (i 1) k := fun k =>
    funext fun a => match a with | ⟨0, _⟩ => rfl | ⟨1, _⟩ => rfl | ⟨2, _⟩ => rfl
  have e2 : ∀ k : Fin 1024, ridx_main_v3 (lidx_main_v4 i s) k = ix2 s k := fun k =>
    funext fun a => match a with | ⟨0, _⟩ => rfl | ⟨1, _⟩ => rfl
  have e3 : ridx_main_v4 i s = ix2 (i 2) s :=
    funext fun a => match a with | ⟨0, _⟩ => rfl | ⟨1, _⟩ => rfl
  rw [e3]
  refine congrArg (· * x2 (ix2 (i 2) s)) (Finset.sum_congr rfl fun k _ => ?_)
  rw [e1 k, e2 k]
  rfl

end Cert.ReferenceIdeal.Rec

end
-- ==== Proof.Same.lean ====
/-
  The two programs' results are one function of the arguments.

  Both cut the image batch into the same patches and put the result back the same way; between, the kernel program holds
  the 16384 patch rows as one matrix and the reference holds them per image. The two arrangements are one row-major
  list, re-arranging twice is re-arranging once, and the two-layer map acts on each row by itself
  (Proof/Mlp.lean `rowsMlp_flatten`): so the kernel program's output matrix is the reference's per-image result
  re-arranged, and the common way back gives equal image batches.
-/
import proofs.«173516_j4681514353454_1_alg».proof.Proof.KernelRun
import proofs.«173516_j4681514353454_1_alg».proof.Proof.RefSide

noncomputable section

namespace Cert.Proof.Same

open Cert.PatchMlp Idealize.ShloMosaic

/-- The per-image arrangement and the one matrix have as many entries. -/
theorem imgs_rows : Imgs.ShapeCasts Rows := by decide

/-- The kernel program's result function is the reference's last stage. -/
theorem value_eq (x : FVec Ideal Cert.KernelIdeal.S16x1x1024x1024 .f32) (ws : FVec Ideal Cert.KernelIdeal.S256x1024 .f32)
    (wi : FVec Ideal Cert.KernelIdeal.S1024x256 .f32) :
    Cert.KernelIdeal.Out.value x ws wi = Cert.ReferenceIdeal.Read.val_main_v7 (F := Ideal) x ws wi := by
  -- the patch matrix is the reference's per-image patch array, re-arranged
  have hP : Cert.KernelIdeal.Out.toPatches x = shapeCast Rows (Cert.ReferenceIdeal.Read.val_main_v2 (F := Ideal) x) imgs_rows :=
    (shapeCast_trans (Cert.ReferenceIdeal.Read.val_main_v1 (F := Ideal) x)
      Cert.ReferenceIdeal.Gen.shapeCasts_S16x32x32x1x32x32_S16x1024x1024 imgs_rows
      Cert.KernelIdeal.Gen.shapeCasts_S16x32x32x1x32x32_S16384x1024).symm
  unfold Cert.KernelIdeal.Out.value
  rw [hP, rowsMlp_flatten (Cert.ReferenceIdeal.Read.val_main_v2 (F := Ideal) x) ws wi imgs_rows,
    ← Cert.ReferenceIdeal.Rec.rec_eq]
  unfold Cert.KernelIdeal.Out.fromPatches
  rw [shapeCast_trans (Cert.ReferenceIdeal.Read.val_main_v4 (F := Ideal) x ws wi) imgs_rows
    Cert.KernelIdeal.Gen.shapeCasts_S16384x1024_S16x32x32x1x32x32
    Cert.ReferenceIdeal.Gen.shapeCasts_S16x1024x1024_S16x32x32x1x32x32]
  rfl

end Cert.Proof.Same

end
-- ==== Proof.lean ====
/-
  The certificate of a patch-wise two-layer linear map (a block-compressed-sensing sampling layer followed by its
  initial reconstruction) over a batch of 16 images of 1024 × 1024, against its einsum reference.

  Both programs cut each image into 32 × 32 patches, flatten a patch to a row a of 1024 numbers, compute
      meas[s] = Σ_k a[k] · ws[s, k]   (256 measurements),      rec[q] = Σ_s meas[s] · wi[q, s]   (1024 numbers),
  and put the rows back as patches. The kernel program does the two products on the matrix unit in bf16 with f32
  accumulation, 1024 rows per grid point; on extended reals a change of float format is the identity and a product into a
  zero accumulator is the plain sum, so it computes exactly these sums, in the reference's own grouping. No law of
  arithmetic beyond re-indexing is needed, and the precondition (finite inputs) is not used.

  The modules: Proof/Mlp.lean (the two-layer map on rows, and that it does not see how the rows are arranged),
  Proof/KernelRow.lean (the kernel body's stored value at an entry), Proof/KernelArray.lean (the region's output array),
  Proof/KernelRun.lean (the kernel program's run with its result named), Proof/RefSide.lean (the reference's two
  contractions), Proof/Same.lean (the two results are one function). The frames of the two kernel programs and the
  reference's run are the generated ones; no operation was rewritten for the ideal reading, so `preserves` has nothing to state.
-/
import proofs.«173516_j4681514353454_1_alg».proof.Defs
import proofs.«173516_j4681514353454_1_alg».proof.Proof.Gen.Kernel
import proofs.«173516_j4681514353454_1_alg».proof.Proof.Gen.Kernel.Skeleton
import proofs.«173516_j4681514353454_1_alg».proof.Proof.Gen.Kernel.Launch
import proofs.«173516_j4681514353454_1_alg».proof.Proof.Gen.Kernel.Points
import proofs.«173516_j4681514353454_1_alg».proof.Proof.Gen.Kernel.Frame
import proofs.«173516_j4681514353454_1_alg».proof.Proof.Gen.KernelIdeal
import proofs.«173516_j4681514353454_1_alg».proof.Proof.Gen.KernelIdeal.Skeleton
import proofs.«173516_j4681514353454_1_alg».proof.Proof.Gen.KernelIdeal.Launch
import proofs.«173516_j4681514353454_1_alg».proof.Proof.Gen.KernelIdeal.Points
import proofs.«173516_j4681514353454_1_alg».proof.Proof.Gen.KernelIdeal.Frame
import proofs.«173516_j4681514353454_1_alg».proof.Proof.Gen.ReferenceIdeal
import proofs.«173516_j4681514353454_1_alg».proof.Proof.Gen.ReferenceIdeal.Run
import proofs.«173516_j4681514353454_1_alg».proof.Proof.Gen.ReferenceIdeal.Read
import proofs.«173516_j4681514353454_1_alg».proof.Proof.Gen.Pre_finite_inputs
import proofs.«173516_j4681514353454_1_alg».proof.Proof.Same
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the arguments the kernel program ends at `value` of them and the reference at its last
    stage of them: one function (Proof/Same.lean). -/
theorem algebraic : Cert.algebraic_KernelIdeal_ReferenceIdeal := by
  intro m ρ m' ρ' _ hagree
  refine ⟨_, Cert.KernelIdeal.Out.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v7_eq, (hagree c).1, (hagree c).2.1, (hagree c).2.2]
  exact (Cert.Proof.Same.value_eq _ _ _).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
